-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "c_neg_inv_d" .f32 0xBF555555#32 ((-4194304 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x512 .f32) (main_arg1 : IVec S4096 32) (main_arg2 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 10000#32
  let main_v13 : IVec S4096 32 := broadcastInDim S4096 ![] bcast_S_S4096 main_c_4
  let main_v14 : IVec S4096 1 := cmpi .slt main_arg1 main_v13
  let main_c_5 : IVec S_ 1 := constantI S_ 1 1#1
  let main_v15 : IVec S_ 1 := (fun x v => Host.reduce IntOp.andi x v reducesTo_S4096_S_d0 h_S_) main_v14 main_c_5
  fn_part1 (F := F) main_v12 main_v15
-- ==== Kernel.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩
abbrev S128x512 : Shape := ⟨2, ![128, 512]⟩
abbrev S128x1 : Shape := ⟨2, ![128, 1]⟩
abbrev S128x10000 : Shape := ⟨2, ![128, 10000]⟩

abbrev nBuf : Space → Nat
  | .hbm => 65
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .bf16⟩
  | .hbm, ⟨4, _⟩ => ⟨S10000x512, .bf16⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S10000x512, .f32⟩
  | .hbm, ⟨10, _⟩ => ⟨S_, .f32⟩
  | .hbm, ⟨11, _⟩ => ⟨S10000, .f32⟩
  | .hbm, ⟨12, _⟩ => ⟨S1x10000, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096, .f32⟩
  | .hbm, ⟨33, _⟩ => ⟨S4096x512, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x10000, .f32⟩
  | .local _ .vmem, ⟨0, _⟩ => ⟨S128x512, .bf16⟩
  | .local _ .vmem, ⟨1, _⟩ => ⟨S128x512, .bf16⟩
  | .local _ .vmem, ⟨2, _⟩ => ⟨S10000x512, .bf16⟩
  | .local _ .vmem, ⟨3, _⟩ => ⟨S128x1, .f32⟩
  | .local _ .vmem, ⟨4, _⟩ => ⟨S128x1, .f32⟩
  | .local _ .vmem, ⟨5, _⟩ => ⟨S1x10000, .f32⟩
  | .local _ .vmem, ⟨6, _⟩ => ⟨S128x10000, .f32⟩
  | .local _ .vmem, ⟨7, _⟩ => ⟨S128x10000, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_v35 : Ref sig .tc := ⟨.hbm, 59, rfl⟩
abbrev main_cst_14 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  shapeCasts_S10000_S1x10000 : S10000.ShapeCasts S1x10000
  bcast_S_S4096 : S_.BroadcastsInDim S4096 (![] : Fin 0 → Fin S4096.rank)
  shapeCasts_S4096x1_S4096 : S4096x1.ShapeCasts S4096
  reducesTo_S4096_S_d0 : S4096.ReducesTo [0] S_
  bcast_S_S4096x1 : S_.BroadcastsInDim S4096x1 (![] : Fin 0 → Fin S4096x1.rank)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S128x1_S128x10000 : S128x1.Broadcasts S128x10000
  broadcasts_S1x10000_S128x10000 : S1x10000.Broadcasts S128x10000
  inb_S128x10000_S128x10000_0_0 : ∀ a, (![0, 0] : Fin 2 → Nat) a + S128x10000.size a ≤ S128x10000.size a
  h_S128x10000 : 0 < S128x10000.numel
  gather_S10000x512_S4096x1_S4096x512_1_0_n_n_0_1_1512_wf : GatherDims.WF S10000x512 S4096x1 S4096x512 [1] [0] [] [0] [] 1 ![1, 512]
  dot_S128x512_S10000x512_S128x10000_1_1_0_0_n_n_wf : DotDims.WF S128x512 S10000x512 S128x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .bf16 = 32 ∨ (Rect.block (s := S4096x512) S128x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .bf16 = 32 ∨ (Rect.block (s := S10000x512) S10000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10000.size a ≤ S1x10000.size a
  hwx0_3 : ∀ i : grid0.Coords, EltTy.bits .f32 = 32 ∨ (Rect.block (s := S1x10000) S1x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x10000.size a ≤ S4096x10000.size a
  hwx0_4 : ∀ i : grid0.Coords, EltTy.bits .f32 = 32 ∨ (Rect.block (s := S4096x10000) S128x10000.size (cc0_transform_4 i) (hinb0_4 i)).WholeWords (EltTy.packing .f32)

variable [Facts₀]

def gather_S10000x512_S4096x1_S4096x512_1_0_n_n_0_1_1512 : GatherDims S10000x512 S4096x1 S4096x512 where
  offsetDims := [1]
  collapsedSliceDims := [0]
  operandBatchingDims := []
  startIndicesBatchingDims := []
  startIndexMap := [0]
  indexVectorDim := 1
  sliceSizes := ![1, 512]
  wf := gather_S10000x512_S4096x1_S4096x512_1_0_n_n_0_1_1512_wf
def dot_S128x512_S10000x512_S128x10000_1_1_0_0_n_n : DotDims S128x512 S10000x512 S128x10000 where
  lhsContracting := [1]
  rhsContracting := [1]
  lhsNonContracting := [0]
  rhsNonContracting := [0]
  lhsBatch := []
  rhsBatch := []
  wf := dot_S128x512_S10000x512_S128x10000_1_1_0_0_n_n_wf

abbrev win0_0 : Pipeline.Window sig grid0 :=
  Pipeline.Window.ofSpec (Memref.whole main_v0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x10000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S128x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩
abbrev S512x10000 : Shape := ⟨2, ![512, 10000]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S512x10000, .f32⟩
  | .hbm, ⟨15, _⟩ => ⟨S4096x10000, .f32⟩
  | .hbm, ⟨16, _⟩ => ⟨S_, .f32⟩
  | .hbm, ⟨17, _⟩ => ⟨S4096x10000, .f32⟩
  | .hbm, ⟨18, _⟩ => ⟨S4096x10000, .f32⟩
  | .hbm, ⟨19, _⟩ => ⟨S4096x10000, .f32⟩
  | .hbm, ⟨20, _⟩ => ⟨S4096x10000, .f32⟩
  | .hbm, ⟨21, _⟩ => ⟨S_, .f32⟩
  | .hbm, ⟨22, _⟩ => ⟨S4096x10000, .f32⟩
  | .hbm, ⟨23, _⟩ => ⟨S4096x10000, .f32⟩
  | .hbm, ⟨24, _⟩ => ⟨S4096x10000, .f32⟩
  | .hbm, ⟨25, _⟩ => ⟨S4096x1, .i32⟩
  | .hbm, ⟨26, _⟩ => ⟨S_, .i32⟩
  | .hbm, ⟨27, _⟩ => ⟨S4096x1, .i32⟩
  | .hbm, ⟨28, _⟩ => ⟨S4096x1, .i1⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S4096x1, .i32⟩
  | .hbm, ⟨33, _⟩ => ⟨S4096x1x1, .i32⟩
  | .hbm, ⟨34, _⟩ => ⟨S1, .i32⟩
  | .hbm, ⟨35, _⟩ => ⟨S_, .i32⟩
  | .hbm, ⟨36, _⟩ => ⟨S4096x1x1, .i32⟩
  | .hbm, ⟨37, _⟩ => ⟨S4096x1x1, .i1⟩
  | .hbm, ⟨38, _⟩ => ⟨S1x1x1, .i32⟩
  | .hbm, ⟨39, _⟩ => ⟨S4096x1x1, .i32⟩
  | .hbm, ⟨40, _⟩ => ⟨S4096x1x1, .i1⟩
  | .hbm, ⟨41, _⟩ => ⟨S4096x1x1, .i1⟩
  | .hbm, ⟨42, _⟩ => ⟨S_, .i1⟩
  | .hbm, ⟨43, _⟩ => ⟨S4096x1, .i1⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096x10000, .f32⟩
  | .hbm, ⟨62, _⟩ => ⟨S4096x10000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v19 : Ref sig .tc := ⟨.hbm, 47, rfl⟩
abbrev main_v20 : Ref sig .tc := ⟨.hbm, 48, rfl⟩
abbrev main_cst_3 : Ref sig .tc := ⟨.hbm, 49, rfl⟩
abbrev main_v21 : Ref sig .tc := ⟨.hbm, 50, rfl⟩
abbrev main_cst_4 : Ref sig .tc := ⟨.hbm, 51, rfl⟩
abbrev main_v22 : Ref sig .tc := ⟨.hbm, 52, rfl⟩
abbrev main_cst_5 : Ref sig .tc := ⟨.hbm, 53, rfl⟩
abbrev main_v23 : Ref sig .tc := ⟨.hbm, 54, rfl⟩
abbrev main_cst_6 : Ref sig .tc := ⟨.hbm, 55, rfl⟩
abbrev main_v24 : Ref sig .tc := ⟨.hbm, 56, rfl⟩
abbrev main_cst_7 : Ref sig .tc := ⟨.hbm, 57, rfl⟩
abbrev main_v25 : Ref sig .tc := ⟨.hbm, 58, rfl⟩
abbrev main_cst_8 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  transposes_S10000x512_S512x10000_1_0 : S10000x512.Transposes [1, 0] S512x10000
  bcast_S_S4096x10000 : S_.BroadcastsInDim S4096x10000 (![] : Fin 0 → Fin S4096x10000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x512_S512x10000_S4096x10000_1_0_0_1_n_n_wf : DotDims.WF S4096x512 S512x10000 S4096x10000 [1] [0] [0] [1] [] []
  gather_S4096x10000_S4096x1x1_S4096x1_n_1_0_0_1_2_11_wf : GatherDims.WF S4096x10000 S4096x1x1 S4096x1 [] [1] [0] [1] [0] 2 ![1, 1]

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf
def gather_S4096x10000_S4096x1x1_S4096x1_n_1_0_0_1_2_11 : GatherDims S4096x10000 S4096x1x1 S4096x1 where
  offsetDims := []
  collapsedSliceDims := [1]
  operandBatchingDims := [0]
  startIndicesBatchingDims := [0]
  startIndexMap := [1]
  indexVectorDim := 2
  sliceSizes := ![1, 1]
  wf := gather_S4096x10000_S4096x1x1_S4096x1_n_1_0_0_1_2_11_wf

class Facts : Prop extends Facts₀ where

variable [Facts]
-- ==== Proof.KernelPayload.lean ====
/-
  What the kernel body stores, entry by entry.

  The body holds a block of 128 feature rows, the whole weight table, the block's 128 row terms (a column) and the
  10000 column terms (a row). Entry (r, j) of what it stores is
    exp (((rowTerm r + colTerm j) - 2 * sum_k featRow[r,k] * weights[j,k]) * c),
  c the named constant -1/D: the matrix product contracts the feature axis of both operands into a zero accumulator,
  the column and the row are broadcast across the block, and everything else is entrywise.
-/
import proofs.«429098_j12240656793881_3_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Logits

open Cert.KernelIdeal Cert.KernelIdeal.Gen Idealize.ShloMosaic Idealize.ShloMosaic.ValueIdx

/-- The named constant denotes -1/D, D = 5033165/4194304, by the certificate's table. -/
theorem neg_inv_temp : Named.named (F := Ideal) κ "c_neg_inv_d" (φ := .f32) 0xBF555555#32
    = ((-4194304 / 5033165 : ℝ) : EReal) :=
  IdealRules.named_const.ideal_named_scalar _ _ _ _ rfl

/-! ## The matrix product's operand indices -/

theorem lhs_axis0 (i : S128x10000.Idx) (q : dot_S128x512_S10000x512_S128x10000_1_1_0_0_n_n.contr.Idx) :
    (dot_S128x512_S10000x512_S128x10000_1_1_0_0_n_n.lhsIdx i q 0).val = (i 0).val := by
  unfold DotDims.lhsIdx
  rw [dif_neg (show ¬(0 : Fin S128x512.rank) ∈ dot_S128x512_S10000x512_S128x10000_1_1_0_0_n_n.lhsBatch by decide),
    dif_pos (show (0 : Fin S128x512.rank) ∈ dot_S128x512_S10000x512_S128x10000_1_1_0_0_n_n.lhsNonContracting by decide)]
  rfl

theorem lhs_axis1 (i : S128x10000.Idx) (q : dot_S128x512_S10000x512_S128x10000_1_1_0_0_n_n.contr.Idx) :
    (dot_S128x512_S10000x512_S128x10000_1_1_0_0_n_n.lhsIdx i q 1).val = (q ⟨0, by decide⟩).val := by
  unfold DotDims.lhsIdx
  rw [dif_neg (show ¬(1 : Fin S128x512.rank) ∈ dot_S128x512_S10000x512_S128x10000_1_1_0_0_n_n.lhsBatch by decide),
    dif_neg (show ¬(1 : Fin S128x512.rank) ∈ dot_S128x512_S10000x512_S128x10000_1_1_0_0_n_n.lhsNonContracting by decide)]
  rfl

theorem rhs_axis0 (i : S128x10000.Idx) (q : dot_S128x512_S10000x512_S128x10000_1_1_0_0_n_n.contr.Idx) :
    (dot_S128x512_S10000x512_S128x10000_1_1_0_0_n_n.rhsIdx i q 0).val = (i 1).val := by
  unfold DotDims.rhsIdx
  rw [dif_neg (show ¬(0 : Fin S10000x512.rank) ∈ dot_S128x512_S10000x512_S128x10000_1_1_0_0_n_n.rhsBatch by decide),
    dif_pos (show (0 : Fin S10000x512.rank) ∈ dot_S128x512_S10000x512_S128x10000_1_1_0_0_n_n.rhsNonContracting by decide)]
  rfl

theorem rhs_axis1 (i : S128x10000.Idx) (q : dot_S128x512_S10000x512_S128x10000_1_1_0_0_n_n.contr.Idx) :
    (dot_S128x512_S10000x512_S128x10000_1_1_0_0_n_n.rhsIdx i q 1).val = (q ⟨0, by decide⟩).val := by
  unfold DotDims.rhsIdx
  rw [dif_neg (show ¬(1 : Fin S10000x512.rank) ∈ dot_S128x512_S10000x512_S128x10000_1_1_0_0_n_n.rhsBatch by decide),
    dif_neg (show ¬(1 : Fin S10000x512.rank) ∈ dot_S128x512_S10000x512_S128x10000_1_1_0_0_n_n.rhsNonContracting by decide)]
  rfl

/-- The product into the zero accumulator, at (r, j): the contraction over the 512 features of row r of the block
    with row j of the table. -/
theorem product_apply (x0 : FVec Ideal S128x512 .bf16) (x1 : FVec Ideal S10000x512 .bf16) (r : Fin 128) (j : Fin 10000) :
    FloatOps.matmul dot_S128x512_S10000x512_S128x10000_1_1_0_0_n_n none x0 x1 (constant S128x10000 .f32 0x00000000#32) (ix2 r j)
      = ∑ k : Fin 512, x0 (ix2 r k) * x1 (ix2 j k) := by
  rw [Ideal.matmul_constant_zero_apply,
    ← Equiv.sum_comp (contrEquiv1 dot_S128x512_S10000x512_S128x10000_1_1_0_0_n_n 512 rfl rfl).symm]
  refine Finset.sum_congr rfl fun k _ => ?_
  have hk := contrEquiv1_symm_val dot_S128x512_S10000x512_S128x10000_1_1_0_0_n_n 512 rfl rfl k
  have el : dot_S128x512_S10000x512_S128x10000_1_1_0_0_n_n.lhsIdx (ix2 r j)
      ((contrEquiv1 dot_S128x512_S10000x512_S128x10000_1_1_0_0_n_n 512 rfl rfl).symm k) = ix2 r k :=
    funext fun a => Fin.ext (by
      match a with
      | ⟨0, _⟩ => exact lhs_axis0 _ _
      | ⟨1, _⟩ => exact (lhs_axis1 _ _).trans hk)
  have er : dot_S128x512_S10000x512_S128x10000_1_1_0_0_n_n.rhsIdx (ix2 r j)
      ((contrEquiv1 dot_S128x512_S10000x512_S128x10000_1_1_0_0_n_n 512 rfl rfl).symm k) = ix2 j k :=
    funext fun a => Fin.ext (by
      match a with
      | ⟨0, _⟩ => exact rhs_axis0 _ _
      | ⟨1, _⟩ => exact (rhs_axis1 _ _).trans hk)
  rw [el, er]

/-! ## The stored value at an entry -/

/-- The column of row terms broadcast across the block reads, at (r, j), its entry (r, 0). -/
theorem rowTerm_apply (x : FVec Ideal S128x1 .f32) (r : Fin 128) (j : Fin 10000) :
    broadcastTo S128x10000 x broadcasts_S128x1_S128x10000 (ix2 r j) = x (ix2 r (0 : Fin 1)) :=
  broadcastTo_apply x _ _ _ fun a => by
    match a with
    | ⟨0, _⟩ => rfl
    | ⟨1, _⟩ => rfl

/-- The row of column terms broadcast down the block reads, at (r, j), its entry (0, j). -/
theorem colTerm_apply (x : FVec Ideal S1x10000 .f32) (r : Fin 128) (j : Fin 10000) :
    broadcastTo S128x10000 x broadcasts_S1x10000_S128x10000 (ix2 r j) = x (ix2 (0 : Fin 1) j) :=
  broadcastTo_apply x _ _ _ fun a => by
    match a with
    | ⟨0, _⟩ => rfl
    | ⟨1, _⟩ => rfl

/-- Entry (r, j) of what the body stores. -/
theorem payload_apply (x0 : Vec Ideal S128x512 .bf16) (x1 : Vec Ideal S10000x512 .bf16) (x2 : Vec Ideal S128x1 .f32)
    (x3 : Vec Ideal S1x10000 .f32) (r : Fin 128) (j : Fin 10000) :
    k0_pay1 (F := Ideal) x0 x1 x2 x3 (ix2 r j)
      = Ideal.exp (((x2 (ix2 r (0 : Fin 1)) + x3 (ix2 (0 : Fin 1) j))
          - Ideal.ofBits .f32 0x40000000#32 * ∑ k : Fin 512, x0 (ix2 r k) * x1 (ix2 j k))
          * ((-4194304 / 5033165 : ℝ) : EReal)) := by
  unfold k0_pay1
  simp only [shapeCast_self]
  show Ideal.exp (((broadcastTo S128x10000 x2 broadcasts_S128x1_S128x10000 (ix2 r j)
        + broadcastTo S128x10000 x3 broadcasts_S1x10000_S128x10000 (ix2 r j))
      - Ideal.ofBits .f32 0x40000000#32 * FloatOps.matmul (F := Ideal) dot_S128x512_S10000x512_S128x10000_1_1_0_0_n_n none
          (x0 : FVec Ideal S128x512 .bf16) (x1 : FVec Ideal S10000x512 .bf16)
          (constant S128x10000 .f32 0x00000000#32) (ix2 r j))
      * Named.named (F := Ideal) κ "c_neg_inv_d" (φ := .f32) 0xBF555555#32) = _
  rw [rowTerm_apply, colTerm_apply, product_apply, neg_inv_temp]

end Cert.KernelIdeal.Logits

end
-- ==== Proof.KernelBlocks.lean ====
/-
  From the blocks the launch writes to the whole result array.

  The launch runs over 32 grid points. Point t holds rows 128 t .. 128 t + 127 of the features and of the row term,
  the whole weight table and the whole column term, and writes rows 128 t .. 128 t + 127 of the result: entry (r, j)
  of its block is the body's stored value at (r, j), which reads row 128 t + r of the features and of the row term,
  row j of the table and entry j of the column term. So each block is the restriction of ONE function of the four
  operand arrays, and the 32 blocks tile the 4096 rows.
-/
import proofs.«429098_j12240656793881_3_alg».proof.Proof.Gen.KernelIdeal.Value
import proofs.«429098_j12240656793881_3_alg».proof.Proof.KernelPayload

set_option maxRecDepth 16384

noncomputable section

namespace Cert.KernelIdeal.Logits

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

/-- The entry the launch leaves at (b, j), from its four operand arrays. -/
def entryOf (fb : Vec Ideal S4096x512 .bf16) (wb : Vec Ideal S10000x512 .bf16) (rowT : Vec Ideal S4096x1 .f32)
    (colT : Vec Ideal S1x10000 .f32) (b : Fin 4096) (j : Fin 10000) : EReal :=
  Ideal.exp (((rowT (ix2 b (0 : Fin 1)) + colT (ix2 (0 : Fin 1) j))
      - Ideal.ofBits .f32 0x40000000#32 * ∑ k : Fin 512, fb (ix2 b k) * wb (ix2 j k))
    * ((-4194304 / 5033165 : ℝ) : EReal))

/-- The array the launch leaves, as one function of its four operand arrays. -/
def launched (fb : Vec Ideal S4096x512 .bf16) (wb : Vec Ideal S10000x512 .bf16) (rowT : Vec Ideal S4096x1 .f32)
    (colT : Vec Ideal S1x10000 .f32) : Vec Ideal S4096x10000 .f32 :=
  fun i => entryOf fb wb rowT colT (i 0) (i 1)

variable (m : (ℓ : Loc nD τ sig) → Buf (Elt Ideal) ℓ) (ρ : Dev nD → PrngReg)

theorem origin_eq : (![0, 0] : Fin 2 → Nat) = fun _ => 0 := funext fun a => by fin_cases a <;> rfl

/-- The index maps over the grid: the features and the row term move with the result along the rows, the table and
    the column term stay, and no window moves along its second axis. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 31 :=
  (by decide +kernel : ∀ t : Fin grid0.N, _)

/-- Every block of 128 rows is some point's. -/
theorem idx_onto : ∀ q : Fin 32, ∃ t : Fin cfg0.N, win0_4.index t = ![q.val, 0] :=
  (by decide +kernel : ∀ q : Fin 32, ∃ t : Fin grid0.N, win0_4.index t = ![q.val, 0])

/-- The result row that row r of point t's block is. -/
def rowOf (t : Fin cfg0.N) (r : Fin 128) : Fin 4096 :=
  ⟨win0_4.index t (0 : Fin 2) * 128 + r.val, by
    have h := (idx_facts t).2.2.2.2.2.2.2.2.2
    have hr : r.val < 128 := r.isLt
    omega⟩

/-! ### Where each window's block sits in its array -/

theorem emb_out (t : Fin cfg0.N) (r : Fin 128) (j : Fin 10000) :
    ((cfg0.win 4).blk t).view.emb (ix2 r j) = ix2 (rowOf t r) j := by
  obtain ⟨e00, e01, e10, e11, e20, e21, e30, e31, e41, e4b⟩ := idx_facts t
  have hj : j.val < 10000 := j.isLt
  refine funext fun a => Fin.ext ?_
  match a with
  | ⟨0, _⟩ => show win0_4.index t (0 : Fin 2) * 128 + 1 * r.val = win0_4.index t (0 : Fin 2) * 128 + r.val; omega
  | ⟨1, _⟩ => show win0_4.index t (1 : Fin 2) * 10000 + 1 * j.val = j.val; omega

theorem emb_feat (t : Fin cfg0.N) (r : Fin 128) (k : Fin 512) :
    ((cfg0.win 0).blk t).view.emb (ix2 r k) = ix2 (rowOf t r) k := by
  obtain ⟨e00, e01, e10, e11, e20, e21, e30, e31, e41, e4b⟩ := idx_facts t
  have hk : k.val < 512 := k.isLt
  refine funext fun a => Fin.ext ?_
  match a with
  | ⟨0, _⟩ => show win0_0.index t (0 : Fin 2) * 128 + 1 * r.val = win0_4.index t (0 : Fin 2) * 128 + r.val; omega
  | ⟨1, _⟩ => show win0_0.index t (1 : Fin 2) * 512 + 1 * k.val = k.val; omega

theorem emb_wts (t : Fin cfg0.N) (j : Fin 10000) (k : Fin 512) :
    ((cfg0.win 1).blk t).view.emb (ix2 j k) = ix2 j k := by
  obtain ⟨e00, e01, e10, e11, e20, e21, e30, e31, e41, e4b⟩ := idx_facts t
  have hk : k.val < 512 := k.isLt
  have hj : j.val < 10000 := j.isLt
  refine funext fun a => Fin.ext ?_
  match a with
  | ⟨0, _⟩ => show win0_1.index t (0 : Fin 2) * 10000 + 1 * j.val = j.val; omega
  | ⟨1, _⟩ => show win0_1.index t (1 : Fin 2) * 512 + 1 * k.val = k.val; omega

theorem emb_rowTerm (t : Fin cfg0.N) (r : Fin 128) :
    ((cfg0.win 2).blk t).view.emb (ix2 r (0 : Fin 1)) = ix2 (rowOf t r) (0 : Fin 1) := by
  obtain ⟨e00, e01, e10, e11, e20, e21, e30, e31, e41, e4b⟩ := idx_facts t
  refine funext fun a => Fin.ext ?_
  match a with
  | ⟨0, _⟩ => show win0_2.index t (0 : Fin 2) * 128 + 1 * r.val = win0_4.index t (0 : Fin 2) * 128 + r.val; omega
  | ⟨1, _⟩ => show win0_2.index t (1 : Fin 2) * 1 + 1 * 0 = 0; omega

theorem emb_colTerm (t : Fin cfg0.N) (j : Fin 10000) :
    ((cfg0.win 3).blk t).view.emb (ix2 (0 : Fin 1) j) = ix2 (0 : Fin 1) j := by
  obtain ⟨e00, e01, e10, e11, e20, e21, e30, e31, e41, e4b⟩ := idx_facts t
  have hj : j.val < 10000 := j.isLt
  refine funext fun a => Fin.ext ?_
  match a with
  | ⟨0, _⟩ => show win0_3.index t (0 : Fin 2) * 1 + 1 * 0 = 0; omega
  | ⟨1, _⟩ => show win0_3.index t (1 : Fin 2) * 10000 + 1 * j.val = j.val; omega

/-- The body's stored value at (r, j), when its four blocks hold the entries of four arrays that row R and row j
    name: the launched entry (R, j) of those arrays. -/
theorem stored_eq_entry (A0 : Vec Ideal S4096x512 .bf16) (A1 : Vec Ideal S10000x512 .bf16) (A2 : Vec Ideal S4096x1 .f32)
    (A3 : Vec Ideal S1x10000 .f32) (x0 : Vec Ideal S128x512 .bf16) (x1 : Vec Ideal S10000x512 .bf16)
    (x2 : Vec Ideal S128x1 .f32) (x3 : Vec Ideal S1x10000 .f32) (R : Fin 4096) (r : Fin 128) (j : Fin 10000)
    (h0 : ∀ k : Fin 512, x0 (ix2 r k) = A0 (ix2 R k)) (h1 : ∀ k : Fin 512, x1 (ix2 j k) = A1 (ix2 j k))
    (h2 : x2 (ix2 r (0 : Fin 1)) = A2 (ix2 R (0 : Fin 1))) (h3 : x3 (ix2 (0 : Fin 1) j) = A3 (ix2 (0 : Fin 1) j)) :
    k0_pay1 (F := Ideal) x0 x1 x2 x3 (ix2 r j) = entryOf A0 A1 A2 A3 R j := by
  rw [payload_apply, h2, h3]
  simp only [h0, h1]
  rfl

/-! ### A window's block at a point is its array read through the block -/

theorem featBlock_apply (c : Dev nD) (t : Fin cfg0.N) (y : S128x512.Idx) :
    iblk m c 0 t y = V m c (Pipeline.arrRef spec0 0) (((cfg0.win 0).blk t).view.emb y) := rfl

theorem wtsBlock_apply (c : Dev nD) (t : Fin cfg0.N) (y : S10000x512.Idx) :
    iblk m c 1 t y = V m c (Pipeline.arrRef spec0 1) (((cfg0.win 1).blk t).view.emb y) := rfl

theorem rowTermBlock_apply (c : Dev nD) (t : Fin cfg0.N) (y : S128x1.Idx) :
    iblk m c 2 t y = V m c (Pipeline.arrRef spec0 2) (((cfg0.win 2).blk t).view.emb y) := rfl

theorem colTermBlock_apply (c : Dev nD) (t : Fin cfg0.N) (y : S1x10000.Idx) :
    iblk m c 3 t y = V m c (Pipeline.arrRef spec0 3) (((cfg0.win 3).blk t).view.emb y) := rfl

set_option maxHeartbeats 1000000 in
/-- What point t writes back is block t of the launched array of the four operand arrays. -/
theorem flushed_eq (c : Dev nD) (t : Fin cfg0.N) :
    (dats m 0 c).flushed 4 t = ((cfg0.win 4).blk t).view.read (Elt Ideal)
      (launched (V m c (Pipeline.arrRef spec0 0)) (V m c (Pipeline.arrRef spec0 1)) (V m c (Pipeline.arrRef spec0 2))
        (V m c (Pipeline.arrRef spec0 3))) := by
  rw [flushed4]
  unfold out0_4
  rw [View.canon_unit_zero origin_eq]
  simp only [View.ld_unit_zero (S := S128x512) origin_eq, View.ld_unit_zero (S := S10000x512) origin_eq,
    View.ld_unit_zero (S := S128x1) origin_eq, View.ld_unit_zero (S := S1x10000) origin_eq]
  funext y
  obtain ⟨r, j, rfl⟩ : ∃ (r : Fin 128) (j : Fin 10000), y = ix2 r j := ⟨y 0, y 1, eq_ix2 y⟩
  refine (stored_eq_entry (V m c (Pipeline.arrRef spec0 0)) (V m c (Pipeline.arrRef spec0 1))
    (V m c (Pipeline.arrRef spec0 2)) (V m c (Pipeline.arrRef spec0 3))
    (iblk m c 0 t) (iblk m c 1 t) (iblk m c 2 t) (iblk m c 3 t) (rowOf t r) r j ?_ ?_ ?_ ?_).trans ?_
  · exact fun k => (featBlock_apply m c t (ix2 r k)).trans (congrArg (V m c (Pipeline.arrRef spec0 0)) (emb_feat t r k))
  · exact fun k => (wtsBlock_apply m c t (ix2 j k)).trans (congrArg (V m c (Pipeline.arrRef spec0 1)) (emb_wts t j k))
  · exact (rowTermBlock_apply m c t (ix2 r (0 : Fin 1))).trans (congrArg (V m c (Pipeline.arrRef spec0 2)) (emb_rowTerm t r))
  · exact (colTermBlock_apply m c t (ix2 (0 : Fin 1) j)).trans (congrArg (V m c (Pipeline.arrRef spec0 3)) (emb_colTerm t j))
  · exact (congrArg (launched (V m c (Pipeline.arrRef spec0 0)) (V m c (Pipeline.arrRef spec0 1))
      (V m c (Pipeline.arrRef spec0 2)) (V m c (Pipeline.arrRef spec0 3))) (emb_out t r j)).symm

/-- An index of the result is in point t's block iff each coordinate is in the block's range on its axis. -/
theorem mem_blk (t : Fin cfg0.N) (i : S4096x10000.Idx) :
    i ∈ ((cfg0.win 4).blk t).view.set ↔ ∀ a : Fin 2, win0_4.index t a * S128x10000.size a ≤ (i a).val
      ∧ (i a).val < win0_4.index t a * S128x10000.size a + S128x10000.size a := by
  show i ∈ ((View.whole main_v39).slice (win0_4.rect t)).set ↔ _
  rw [View.set_slice_whole, Rect.mem_set_unit]
  exact Iff.rfl

/-- Every index of the result is in some point's block: row b is in block b / 128. -/
theorem covered (c : Dev nD) (i : S4096x10000.Idx) :
    ∃ t : Fin cfg0.N, (cfg0.win 4).flush t = true ∧ i ∈ ((cfg0.win 4).blk t).view.set := by
  have hi0 : (i 0).val < 4096 := (i 0).isLt
  have hi1 : (i 1).val < 10000 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 10000 ≤ (i 1).val ∧ (i 1).val < win0_4.index t (1 : Fin 2) * 10000 + 10000
    omega

/-- The result array after the launch is the launched array of the four operand arrays. -/
theorem final_eq (c : Dev nD) : (dats m 0 c).arrAt 4 cfg0.N
    = launched (V m c main_v0) (V m c main_v1) (V m c main_v38) (V m c main_v7) :=
  (dats m 0 c).arrAt_eq_of_cover 4
    (launched (V m c (Pipeline.arrRef spec0 0)) (V m c (Pipeline.arrRef spec0 1)) (V m c (Pipeline.arrRef spec0 2))
      (V m c (Pipeline.arrRef spec0 3)))
    (fun t _ => flushed_eq m c t) (covered c)

/-- The program's run, with the result named. -/
theorem run_launched : θ_run defs (onTc (τ := τ) (main (F := Ideal))) ⟨m, fun _ => 0, ρ⟩ fun r => ∀ c : Dev nD,
      r.2.mem ((c : Thread nD τ).loc main_v39) = launched (V m c main_v0) (V m c main_v1) (V m c main_v38) (V m c main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (run_blocks m ρ)

end Cert.KernelIdeal.Logits

end
-- ==== Proof.Spec.lean ====
/-
  The mathematics shared by the two programs, with no program in sight.

  Write D for the real 5033165/4194304 (the single-precision literal nearest 1.2) and, for a sample b and a class j,
  M b j = (x2 b + w2 j) - 2 * dot b j, the squared distance between feature row b and weight row j expanded as
  |x|^2 + |w|^2 - 2 x.w. One program computes S * exp (-(M b j) / D), S a positive scale read off the labelled
  entries; the other folds the scale into the row term and computes exp (((x2 b - D * log S) + w2 j - 2 * dot b j) * c)
  with c = -1/D. Over the reals these agree because c * D = -1 and exp (log S) = S for S > 0; over the extended reals
  the same holds once x2, w2 and dot are known to be real, which they are as finite sums of products of reals.
-/
import Idealize.ShloMosaic.PureOps.Ideal

noncomputable section

namespace Cert.MetricLogits

open Idealize.ShloMosaic

/-! ## The literals the two programs spell, as extended reals -/

theorem lit_zero : Ideal.ofBits .f32 0x00000000#32 = 0 := by
  simp [Ideal.ofBits, Ideal.ieee]

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_three : Ideal.ofBits .f32 0x40400000#32 = ((3 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_count : Ideal.ofBits .f32 0x45800000#32 = ((4096 : ℝ) : EReal) := by
  simp [Ideal.ofBits, Ideal.ieee, -EReal.coe_mul]; norm_num

/-- The literal nearest log 9999. -/
theorem lit_logn : Ideal.ofBits .f32 0x41135D25#32 = ((9657637 / 1048576 : ℝ) : EReal) := by
  simp [Ideal.ofBits, Ideal.ieee, -EReal.coe_mul]; norm_num

/-- The literal nearest 1.2: the temperature D both programs divide by. -/
theorem lit_temp : Ideal.ofBits .f32 0x3F99999A#32 = ((5033165 / 4194304 : ℝ) : EReal) := by
  simp [Ideal.ofBits, Ideal.ieee, -EReal.coe_mul]; norm_num

/-! ## Being a real number is kept by the arithmetic the programs do -/

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Dividing a real by the temperature gives a real: the quotient is the product with 1/D. -/
theorem IsReal.div_temp {x : EReal} (hx : IsReal x) : IsReal (Ideal.div x (Ideal.ofBits .f32 0x3F99999A#32)) := by
  obtain ⟨a, rfl⟩ := hx
  rw [lit_temp, Ideal.div_coe (by norm_num : (5033165 / 4194304 : ℝ) ≠ 0)]
  exact (isReal_coe a).mul (isReal_coe _)

/-- The exponential of a real is a positive real. -/
theorem exp_pos_real {x : EReal} (hx : IsReal x) : ∃ r : ℝ, 0 < r ∧ Ideal.exp x = (r : EReal) := by
  obtain ⟨a, rfl⟩ := hx
  exact ⟨Real.exp a, Real.exp_pos a, Ideal.exp_coe a⟩

/-! ## The scale: a positive real whenever the labelled entries are positive reals -/

/-- The larger of two reals, taken among the extended reals, is the real maximum. -/
theorem max_coe (a b : ℝ) : max (a : EReal) (b : EReal) = ((max a b : ℝ) : EReal) :=
  (EReal.coe_strictMono.monotone.map_max).symm

/-- The scale both programs derive from the mean of the labelled entries: three times log 9999 over the mean clamped
    below at one half. The arguments are the sum of the entries as the program forms it (zero plus the sum). -/
def scaleOf (total : EReal) : EReal :=
  Ideal.ofBits .f32 0x40400000#32 *
    (Ideal.div (Ideal.ofBits .f32 0x3F800000#32)
        (max (Ideal.div total (Ideal.ofBits .f32 0x45800000#32)) (Ideal.ofBits .f32 0x3F000000#32))
      * Ideal.ofBits .f32 0x41135D25#32)

/-- The scale of a real total is a positive real: the clamped mean is at least one half. -/
theorem scaleOf_pos {total : EReal} (h : IsReal total) : ∃ s : ℝ, 0 < s ∧ scaleOf total = (s : EReal) := by
  obtain ⟨a, rfl⟩ := h
  unfold scaleOf
  rw [lit_three, lit_one, lit_count, lit_half, lit_logn, Ideal.div_coe (by norm_num : (4096 : ℝ) ≠ 0),
    ← EReal.coe_mul, max_coe]
  have hpos : (0 : ℝ) < max (a * (1 / 4096)) (1 / 2) := lt_of_lt_of_le (by norm_num) (le_max_right _ _)
  rw [Ideal.div_coe hpos.ne', ← EReal.coe_mul, ← EReal.coe_mul, ← EReal.coe_mul]
  exact ⟨_, by positivity, rfl⟩

/-! ## The law that joins the two programs at one entry -/

/-- With x2, w2, dot real and S a positive real: folding D * log S into the row term and multiplying the metric by
    -1/D is scaling exp (-metric / D) by S. -/
theorem fused_eq_scaled {x2 w2 dot S : EReal} (hx : IsReal x2) (hw : IsReal w2) (hd : IsReal dot)
    (hS : ∃ s : ℝ, 0 < s ∧ S = (s : EReal)) :
    Ideal.exp ((((x2 - Ideal.ofBits .f32 0x3F99999A#32 * Ideal.log S) + w2) - Ideal.ofBits .f32 0x40000000#32 * dot)
        * ((-4194304 / 5033165 : ℝ) : EReal))
      = S * Ideal.exp (Ideal.div (-((x2 + w2) - Ideal.ofBits .f32 0x40000000#32 * dot)) (Ideal.ofBits .f32 0x3F99999A#32)) := by
  obtain ⟨a, rfl⟩ := hx; obtain ⟨b, rfl⟩ := hw; obtain ⟨d, rfl⟩ := hd; obtain ⟨s, hs, rfl⟩ := hS
  rw [lit_temp, lit_two, Ideal.div_coe (by norm_num : (5033165 / 4194304 : ℝ) ≠ 0), Ideal.log_coe, if_neg (not_le.2 hs)]
  simp only [← EReal.coe_mul, ← EReal.coe_sub, ← EReal.coe_add, ← EReal.coe_neg, Ideal.exp_coe]
  rw [EReal.coe_eq_coe_iff]
  have e : (a - 5033165 / 4194304 * Real.log s + b - 2 * d) * (-4194304 / 5033165)
      = -(a + b - 2 * d) * (1 / (5033165 / 4194304)) + Real.log s := by ring
  rw [e, Real.exp_add, Real.exp_log hs, mul_comm]

end Cert.MetricLogits

end
-- ==== Proof.GatherRead.lean ====
/-
  The two gathers of the programs, read at an index.

  Picking, for each sample b, the weight row its label names is a gather of whole rows out of the [10000, 512] table by
  a [4096, 1] array of row numbers: element (b, k) of the result is the table at (row, k), the row number read as a
  signed integer and clamped into [0, 9999]. Picking, for each sample b, the one entry of its own row of a
  [4096, 10000] matrix that its label names is a gather with the sample axis as a batching axis: element (b, 0) of the
  result is the matrix at (b, column), the column clamped the same way.
-/
import Idealize.ShloMosaic.Lib.ValueIdx

noncomputable section

namespace Cert.MetricLogits

open Idealize.ShloMosaic Idealize.ShloMosaic.ValueIdx

/-- A class number read off a signed 32-bit word and clamped into the table's rows. -/
def clampClass (w : BitVec 32) : Fin 10000 := ⟨min w.toInt.toNat 9999, by omega⟩

section Rows
variable {α : Type}

/-- The dimension numbers of "table[rows]": whole rows of a [10000, 512] table by a [4096, 1] array of row numbers. -/
abbrev rowDims (wf : GatherDims.WF ⟨2, ![10000, 512]⟩ ⟨2, ![4096, 1]⟩ ⟨2, ![4096, 512]⟩ [1] [0] [] [0] [] 1 ![1, 512]) :
    GatherDims ⟨2, ![10000, 512]⟩ ⟨2, ![4096, 1]⟩ ⟨2, ![4096, 512]⟩ where
  offsetDims := [1]
  collapsedSliceDims := [0]
  operandBatchingDims := []
  startIndicesBatchingDims := []
  startIndexMap := [0]
  indexVectorDim := 1
  sliceSizes := ![1, 512]
  wf := wf

/-- Element (b, k) of the gathered rows is the table at (the clamped row number of sample b, k). -/
theorem gather_rows_apply (wf : GatherDims.WF ⟨2, ![10000, 512]⟩ ⟨2, ![4096, 1]⟩ ⟨2, ![4096, 512]⟩ [1] [0] [] [0] [] 1 ![1, 512])
    (x : (⟨2, ![10000, 512]⟩ : Shape).Idx → α) (idx : IVec ⟨2, ![4096, 1]⟩ 32) (b : Fin 4096) (k : Fin 512) :
    Host.gather (rowDims wf) x idx (ix2 b k) = x (ix2 (clampClass (idx (ix2 b (0 : Fin 1)))) k) := by
  unfold Host.gather
  congr 1
  funext a
  refine Fin.ext ?_
  match a with
  | ⟨0, _⟩ =>
    show (rowDims wf).start (ix2 b k) idx 0 + (rowDims wf).batchCoord (ix2 b k) 0 + (rowDims wf).offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 b k) ⟨List.idxOf (0 : Fin 2) (rowDims wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rowDims wf).start (ix2 b k) idx 1 + (rowDims wf).batchCoord (ix2 b k) 1 + (rowDims wf).offCoord (ix2 b k) 1 = _
    rw [GatherDims.batchCoord_eq_zero _ _ _ List.not_mem_nil]
    unfold GatherDims.start
    rw [dif_neg (show ¬ (1 : Fin 2) ∈ (rowDims wf).startIndexMap from fun h => absurd (List.mem_singleton.mp h) (by decide))]
    simp only [Nat.add_zero, Nat.zero_add]
    rfl

end Rows

section Entries
variable {α : Type}

/-- The dimension numbers of "one entry of each row": a [4096, 10000] matrix by a [4096, 1, 1] array of column numbers,
    the sample axis a batching axis of both. -/
abbrev entryDims (wf : GatherDims.WF ⟨2, ![4096, 10000]⟩ ⟨3, ![4096, 1, 1]⟩ ⟨2, ![4096, 1]⟩ [] [1] [0] [1] [0] 2 ![1, 1]) :
    GatherDims ⟨2, ![4096, 10000]⟩ ⟨3, ![4096, 1, 1]⟩ ⟨2, ![4096, 1]⟩ where
  offsetDims := []
  collapsedSliceDims := [1]
  operandBatchingDims := [0]
  startIndicesBatchingDims := [0]
  startIndexMap := [1]
  indexVectorDim := 2
  sliceSizes := ![1, 1]
  wf := wf

/-- Element (b, 0) of the gathered entries is the matrix at (b, the clamped column number of sample b). -/
theorem gather_entries_apply (wf : GatherDims.WF ⟨2, ![4096, 10000]⟩ ⟨3, ![4096, 1, 1]⟩ ⟨2, ![4096, 1]⟩ [] [1] [0] [1] [0] 2 ![1, 1])
    (x : (⟨2, ![4096, 10000]⟩ : Shape).Idx → α) (idx : IVec ⟨3, ![4096, 1, 1]⟩ 32) (b : Fin 4096) :
    Host.gather (entryDims wf) x idx (ix2 b (0 : Fin 1))
      = x (ix2 b (clampClass (idx (ix3 b (0 : Fin 1) (0 : Fin 1))))) := by
  unfold Host.gather
  congr 1
  funext a
  refine Fin.ext ?_
  match a with
  | ⟨0, _⟩ =>
    show (entryDims wf).start (ix2 b 0) idx 0 + (entryDims wf).batchCoord (ix2 b 0) 0 + (entryDims wf).offCoord (ix2 b 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (entryDims wf).operandBatchingDims from List.mem_singleton.mpr rfl)]
    rfl
  | ⟨1, _⟩ =>
    show (entryDims wf).start (ix2 b 0) idx 1 + (entryDims wf).batchCoord (ix2 b 0) 1 + (entryDims wf).offCoord (ix2 b 0) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (entryDims wf).startIndexMap from List.mem_singleton.mpr rfl)]
    have hsi : (entryDims wf).siIdx (ix2 b 0) ⟨List.idxOf (1 : Fin 2) (entryDims wf).startIndexMap,
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

end Entries

end Cert.MetricLogits

end
-- ==== Proof.Target.lean ====
/-
  The function both programs compute, entry by entry, stated over plain arrays.

  For a sample b and a class j:
    sqFeat b   = zero + sum_k feat[b,k]^2            (the squared norm of feature row b)
    sqWts j    = zero + sum_k weights[j,k]^2         (the squared norm of weight row j)
    dotFW b j  = sum_k feat[b,k] * weights[j,k]
    metric b j = (sqFeat b + sqWts j) - 2 * dotFW b j        (the squared distance, expanded)
    kern b j   = exp (-(metric b j) / D)                     (the kernel of the distance at temperature D)
    labelled b = kern b (label b)                            (the kernel at the sample's own class)
    scale      = 3 * ((1 / max (mean of labelled) (1/2)) * log 9999)
    logits b j = scale * kern b j.
  The fused form of the same entry folds the scale into the row term:
    exp ((((sqFeat b - D * log scale) + sqWts j) - 2 * dotFW b j) * (-1/D)).
  On real inputs the two agree (the law of the specification module): every sum is a real, every kernel entry a
  positive real, so the scale is a positive real.
-/
import proofs.«429098_j12240656793881_3_alg».proof.Proof.Spec
import proofs.«429098_j12240656793881_3_alg».proof.Proof.GatherRead

noncomputable section

namespace Cert.MetricLogits

open Idealize.ShloMosaic Idealize.ShloMosaic.ValueIdx

/-- Features: 4096 samples of 512 numbers. -/
abbrev Feat := (⟨2, ![4096, 512]⟩ : Shape).Idx → EReal
/-- Class weights: 10000 classes of 512 numbers. -/
abbrev Wts := (⟨2, ![10000, 512]⟩ : Shape).Idx → EReal
/-- One class label per sample, a signed 32-bit word. -/
abbrev Lab := (⟨1, ![4096]⟩ : Shape).Idx → BitVec 32

/-- The squared norm of feature row b, as a sum started at the literal zero. -/
def sqFeat (f : Feat) (b : Fin 4096) : EReal :=
  Ideal.ofBits .f32 0x00000000#32 + ∑ k : Fin 512, f (ix2 b k) * f (ix2 b k)

/-- The squared norm of weight row j, as a sum started at the literal zero. -/
def sqWts (w : Wts) (j : Fin 10000) : EReal :=
  Ideal.ofBits .f32 0x00000000#32 + ∑ k : Fin 512, w (ix2 j k) * w (ix2 j k)

/-- The inner product of feature row b and weight row j. -/
def dotFW (f : Feat) (w : Wts) (b : Fin 4096) (j : Fin 10000) : EReal :=
  ∑ k : Fin 512, f (ix2 b k) * w (ix2 j k)

/-- The squared distance between feature row b and weight row j, expanded. -/
def metric (f : Feat) (w : Wts) (b : Fin 4096) (j : Fin 10000) : EReal :=
  (sqFeat f b + sqWts w j) - Ideal.ofBits .f32 0x40000000#32 * dotFW f w b j

/-- The kernel of the distance at temperature D. -/
def kern (f : Feat) (w : Wts) (b : Fin 4096) (j : Fin 10000) : EReal :=
  Ideal.exp (Ideal.div (-(metric f w b j)) (Ideal.ofBits .f32 0x3F99999A#32))

/-- The kernel at each sample's own class, the class number read off the label and clamped into the table. -/
def labelled (f : Feat) (l : Lab) (w : Wts) (i : (⟨1, ![4096]⟩ : Shape).Idx) : EReal :=
  kern f w (i 0) (clampClass (l i))

/-- The scale: from the mean of the labelled kernel entries. -/
def scale (f : Feat) (l : Lab) (w : Wts) : EReal :=
  scaleOf (Ideal.ofBits .f32 0x00000000#32 + ∑ i : (⟨1, ![4096]⟩ : Shape).Idx, labelled f l w i)

/-- The result: the kernel matrix scaled. -/
def logits (f : Feat) (l : Lab) (w : Wts) (i : (⟨2, ![4096, 10000]⟩ : Shape).Idx) : EReal :=
  scale f l w * kern f w (i 0) (i 1)

/-- The fused form of one entry: the scale folded into the row term, the metric multiplied by -1/D. -/
def fused (f : Feat) (l : Lab) (w : Wts) (i : (⟨2, ![4096, 10000]⟩ : Shape).Idx) : EReal :=
  Ideal.exp ((((sqFeat f (i 0) - Ideal.ofBits .f32 0x3F99999A#32 * Ideal.log (scale f l w)) + sqWts w (i 1))
      - Ideal.ofBits .f32 0x40000000#32 * dotFW f w (i 0) (i 1)) * ((-4194304 / 5033165 : ℝ) : EReal))

section Real
variable {f : Feat} {w : Wts} (hf : ∀ i, IsReal (f i)) (hw : ∀ i, IsReal (w i))
include hf hw

theorem isReal_sqFeat (b : Fin 4096) : IsReal (sqFeat f b) := by
  unfold sqFeat; rw [lit_zero]
  exact isReal_zero.add (isReal_sum _ _ fun k _ => (hf _).mul (hf _))

theorem isReal_sqWts (j : Fin 10000) : IsReal (sqWts w j) := by
  unfold sqWts; rw [lit_zero]
  exact isReal_zero.add (isReal_sum _ _ fun k _ => (hw _).mul (hw _))

theorem isReal_dotFW (b : Fin 4096) (j : Fin 10000) : IsReal (dotFW f w b j) :=
  isReal_sum _ _ fun k _ => (hf _).mul (hw _)

theorem isReal_metric (b : Fin 4096) (j : Fin 10000) : IsReal (metric f w b j) := by
  unfold metric; rw [lit_two]
  exact ((isReal_sqFeat hf hw b).add (isReal_sqWts hf hw j)).sub ((isReal_coe 2).mul (isReal_dotFW hf hw b j))

/-- Every kernel entry is a positive real. -/
theorem kern_pos (b : Fin 4096) (j : Fin 10000) : ∃ r : ℝ, 0 < r ∧ kern f w b j = (r : EReal) :=
  exp_pos_real (isReal_metric hf hw b j).neg.div_temp

/-- The scale is a positive real. -/
theorem scale_pos (l : Lab) : ∃ s : ℝ, 0 < s ∧ scale f l w = (s : EReal) := by
  refine scaleOf_pos ?_
  rw [lit_zero]
  refine isReal_zero.add (isReal_sum _ _ fun i _ => ?_)
  obtain ⟨r, -, hr⟩ := kern_pos hf hw (i 0) (clampClass (l i))
  exact ⟨r, hr⟩

/-- On real inputs the fused entry is the scaled kernel entry. -/
theorem fused_eq_logits (l : Lab) (i : (⟨2, ![4096, 10000]⟩ : Shape).Idx) : fused f l w i = logits f l w i := by
  unfold fused logits kern metric
  exact fused_eq_scaled (isReal_sqFeat hf hw (i 0)) (isReal_sqWts hf hw (i 1)) (isReal_dotFW hf hw (i 0) (i 1))
    (scale_pos hf hw l)

end Real

end Cert.MetricLogits

end
-- ==== Proof.ClassWords.lean ====
/-
  A class label as a machine word.

  A label is a signed 32-bit word. When it is a class number, 0 <= label < 10000, every guard the two programs put
  around it is idle: it does not test negative, so nothing is added to wrap it around; clipping it into [0, 9999]
  returns it; and the test "0 <= label <= 9999" that masks an out-of-range read is passed. A conjunction of passed
  tests, folded from a true start, is true.
-/
import Idealize.ShloMosaic.Lib.ReduceAll

noncomputable section

namespace Cert.MetricLogits

open Idealize.ShloMosaic

/-- A one-bit word that is not 1 is 0. -/
theorem bit_eq_zero_of_ne_one (c : BitVec 1) (h : c ≠ 1#1) : c = 0#1 := by
  revert c; decide

section Range
variable {x : BitVec 32} (h0 : 0 ≤ x.toInt) (h1 : x.toInt < 10000)

include h0 in
/-- A class number does not test negative. -/
theorem slt_zero_eq : IntOp.cmpi .slt x 0#32 = 0#1 :=
  bit_eq_zero_of_ne_one _ fun h => by
    have := IntOp.cmpi_slt.1 h
    have z : (0#32 : BitVec 32).toInt = 0 := by decide
    omega

include h0 in
/-- A class number tests at least zero. -/
theorem sge_zero_eq : IntOp.cmpi .sge x 0#32 = 1#1 := by
  have z : (0#32 : BitVec 32).toInt = 0 := by decide
  exact IntOp.cmpi_sge.2 (by omega)

include h1 in
/-- A class number tests at most 9999. -/
theorem sle_last_eq : IntOp.cmpi .sle x 9999#32 = 1#1 := by
  have z : (9999#32 : BitVec 32).toInt = 9999 := by decide
  exact IntOp.cmpi_sle.2 (by omega)

include h0 in
/-- Raising a class number to at least zero returns it. -/
theorem maxsi_zero_eq : IntOp.maxsi 0#32 x = x := by
  unfold IntOp.maxsi
  rw [if_neg]
  rw [BitVec.slt_iff_toInt_lt]
  have z : (0#32 : BitVec 32).toInt = 0 := by decide
  omega

include h1 in
/-- Lowering a class number to at most 9999 returns it. -/
theorem minsi_last_eq : IntOp.minsi 9999#32 x = x := by
  unfold IntOp.minsi
  rw [if_neg]
  rw [BitVec.slt_iff_toInt_lt]
  have z : (9999#32 : BitVec 32).toInt = 9999 := by decide
  omega

end Range

/-- Folding "and" over words that are all 1, from 1, gives 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by "and" of an array of ones, from one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

end Cert.MetricLogits

end
-- ==== Proof.KernelHost.lean ====
/-
  What the kernel's launch finds in its four operand arrays.

  Before the launch the program computes, on the host, exactly the quantities of the specification:
    the squared norm of every feature row and of every weight row (sums along the feature axis from zero);
    for every sample the weight row its label names (the label clipped into [0, 9999], re-indexed from the end when
    negative, then gathered), that row's squared norm and its inner product with the sample's features, hence the
    labelled kernel entry exp (-((|x|^2 + |w_label|^2) - 2 x.w_label) / D);
    the scale from the mean of those entries;
  and hands the launch: the features and the weights (narrowed to half precision, which is the identity over the
  extended reals), the ROW TERM |x_b|^2 - D * log scale as a column, and the COLUMN TERM |w_j|^2 as a row.
  For a class number the clip and the re-indexing return the label, so the gathered row is the labelled row.
-/
import proofs.«429098_j12240656793881_3_alg».proof.Proof.Gen.KernelIdeal.Frame
import proofs.«429098_j12240656793881_3_alg».proof.Proof.Target
import proofs.«429098_j12240656793881_3_alg».proof.Proof.ClassWords
import Idealize.ShloMosaic.Lib.Pipeline.Value
import Idealize.ShloMosaic.Lib.StableHlo.Run
import Idealize.ShloMosaic.PureOps.Ideal.Laws

set_option maxRecDepth 16384

noncomputable section

namespace Cert.KernelIdeal.Logits

open Cert.KernelIdeal Cert.KernelIdeal.Gen Cert.MetricLogits
open Idealize.ShloMosaic Idealize.ShloMosaic.TcCoe Idealize.ShloMosaic.ValueIdx Idealize.ShloMosaic.StableHlo Idealize.SL.Sem

/-! ## The host stages, as the program composes them -/

section Stages
variable (a0 : Feat) (a1 : Lab) (a2 : Wts)

/-- The squared norm of every feature row. -/
def hSqFeat : FVec Ideal S4096 .f32 :=
  Host.reduceAdd (mulf a0 a0) (constant S_ .f32 0x00000000#32) reducesTo_S4096x512_S4096_d1 h_S_

/-- The squared norm of every weight row. -/
def hSqWts : FVec Ideal S10000 .f32 :=
  Host.reduceAdd (mulf a2 a2) (constant S_ .f32 0x00000000#32) reducesTo_S10000x512_S10000_d1 h_S_

/-- The label clipped into [0, 9999]. -/
def hClip : IVec S4096 32 :=
  minsi (broadcastInDim S4096 ![] bcast_S_S4096 (constantI S_ 32 9999#32))
    (maxsi (broadcastInDim S4096 ![] bcast_S_S4096 (constantI S_ 32 0#32)) a1)

/-- The clipped label re-indexed from the end when negative, as a column of row numbers. -/
def hRowNo : IVec S4096x1 32 :=
  broadcastInDim S4096x1 ![0] bcast_S4096_S4096x1_0
    (select (cmpi .slt (hClip a1) (broadcastInDim S4096 ![] bcast_S_S4096 (constantI S_ 32 0#32)))
      (addi (hClip a1) (broadcastInDim S4096 ![] bcast_S_S4096 (constantI S_ 32 10000#32))) (hClip a1))

/-- For every sample, the weight row its label names. -/
def hRows : FVec Ideal S4096x512 .f32 :=
  Host.gather gather_S10000x512_S4096x1_S4096x512_1_0_n_n_0_1_1512 a2 (hRowNo a1)

/-- The inner product of every sample with its labelled row. -/
def hDotLab : FVec Ideal S4096 .f32 :=
  Host.reduceAdd (mulf a0 (hRows a1 a2)) (constant S_ .f32 0x00000000#32) reducesTo_S4096x512_S4096_d1 h_S_

/-- The squared norm of every sample's labelled row. -/
def hSqLab : FVec Ideal S4096 .f32 :=
  Host.reduceAdd (mulf (hRows a1 a2) (hRows a1 a2)) (constant S_ .f32 0x00000000#32) reducesTo_S4096x512_S4096_d1 h_S_

/-- The squared norms of the feature rows as a column. -/
def hSqFeatCol : FVec Ideal S4096x1 .f32 :=
  broadcastInDim S4096x1 ![0] bcast_S4096_S4096x1_0 (hSqFeat a0)

/-- The labelled kernel entries. -/
def hLabelled : FVec Ideal S4096 .f32 :=
  Host.exp (Host.divf
    (Host.negf (subf (addf (shapeCast _ (hSqFeatCol a0) shapeCasts_S4096x1_S4096) (hSqLab a1 a2))
      (mulf (broadcastInDim S4096 ![] bcast_S_S4096 (constant S_ .f32 0x40000000#32)) (hDotLab a0 a1 a2))))
    (broadcastInDim S4096 ![] bcast_S_S4096 (constant S_ .f32 0x3F99999A#32)))

/-- The scale. -/
def hScale : FVec Ideal S_ .f32 :=
  mulf (constant S_ .f32 0x40400000#32)
    (mulf (Host.divf (constant S_ .f32 0x3F800000#32)
        (maximumf (Host.divf (Host.reduceAdd (hLabelled a0 a1 a2) (constant S_ .f32 0x00000000#32) reducesTo_S4096_S_d0 h_S_)
          (constant S_ .f32 0x45800000#32)) (constant S_ .f32 0x3F000000#32)))
      (constant S_ .f32 0x41135D25#32))

/-- The row term: the squared norm of the feature row less D times the logarithm of the scale. -/
def hRowTerm : FVec Ideal S4096x1 .f32 :=
  subf (hSqFeatCol a0)
    (broadcastInDim S4096x1 ![] bcast_S_S4096x1 (mulf (constant S_ .f32 0x3F99999A#32) (Host.log (hScale a0 a1 a2))))

/-- The column term: the squared norms of the weight rows as a row. -/
def hColTerm : FVec Ideal S1x10000 .f32 :=
  shapeCast _ (hSqWts a2) shapeCasts_S10000_S1x10000

/-- The features narrowed to half precision: over the extended reals, the features. -/
def hFeatNarrow : FVec Ideal S4096x512 .bf16 := truncf .bf16 a0 bitsLt_bf16_f32

/-- The weights narrowed to half precision: over the extended reals, the weights. -/
def hWtsNarrow : FVec Ideal S10000x512 .bf16 := truncf .bf16 a2 bitsLt_bf16_f32

end Stages

/-! ## The launch finds these in its operand arrays -/

section Found
variable (m : (ℓ : Loc nD τ sig) → Buf (Elt Ideal) ℓ) (c : Dev nD)

theorem found_feat : V m c main_v0 = hFeatNarrow (m ((c : Thread nD τ).loc main_arg0)) := by
  dsimp only [V]
  simp only [hostOps0, hostOps0_1, hostOps0_2, List.flatten_cons, List.flatten_nil, List.append_nil, List.cons_append,
    List.nil_append]
  after_results_simp
  rfl

theorem found_wts : V m c main_v1 = hWtsNarrow (m ((c : Thread nD τ).loc main_arg2)) := by
  dsimp only [V]
  simp only [hostOps0, hostOps0_1, hostOps0_2, List.flatten_cons, List.flatten_nil, List.append_nil, List.cons_append,
    List.nil_append]
  after_results_simp
  rfl

theorem found_colTerm : V m c main_v7 = hColTerm (m ((c : Thread nD τ).loc main_arg2)) := by
  dsimp only [V]
  simp only [hostOps0, hostOps0_1, hostOps0_2, List.flatten_cons, List.flatten_nil, List.append_nil, List.cons_append,
    List.nil_append]
  after_results_simp
  rfl

set_option maxHeartbeats 2000000 in
theorem found_rowTerm : V m c main_v38 = hRowTerm (m ((c : Thread nD τ).loc main_arg0))
    (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp
  rfl

end Found

end Cert.KernelIdeal.Logits

end
-- ==== Proof.KernelHostRead.lean ====
/-
  The host stages of the kernel's program, read entry by entry.

  Each stage is one of the specification's quantities: a sum along the feature axis read at a row is the sum over the
  512 features of that row; for a class number the gathered row is the labelled weight row, so the per-sample inner
  product and squared norm are the specification's at the label, and the labelled kernel entry is the specification's
  (the inner product's sum starts at the literal zero, which adds nothing); the scale is the specification's scale of
  the same entries; the row term at (b, 0) is |x_b|^2 - D * log scale and the column term at (0, j) is |w_j|^2.
-/
import proofs.«429098_j12240656793881_3_alg».proof.Proof.KernelHost

set_option maxRecDepth 16384

noncomputable section

namespace Cert.KernelIdeal.Logits

open Cert.KernelIdeal Cert.KernelIdeal.Gen Cert.MetricLogits
open Idealize.ShloMosaic Idealize.ShloMosaic.TcCoe Idealize.ShloMosaic.ValueIdx Idealize.SL.Sem

/-! ## Sums along the feature axis -/

/-- A sum along the feature axis of a [4096, 512] array, from an initial scalar, at row b. -/
theorem featSum_apply (y : FVec Ideal S4096x512 .f32) (init : FVec Ideal S_ .f32) (b : Fin 4096) :
    Host.reduceAdd y init reducesTo_S4096x512_S4096_d1 h_S_ (ix1 b)
      = init (Shape.Idx.first h_S_) + ∑ k : Fin 512, y (ix2 b k) := by
  simp only [Host.reduceAdd, Ideal.hostReduceAdd_def]
  rw [Ideal.hostReduceAdd_single reducesTo_S4096x512_S4096_d1 (by decide)]
  refine congrArg (_ + ·) (Finset.sum_congr rfl fun k _ => ?_)
  exact congrArg y (funext fun a => Fin.ext (by match a with | ⟨0, _⟩ => rfl | ⟨1, _⟩ => rfl))

/-- A sum along the feature axis of a [10000, 512] array, from an initial scalar, at row j. -/
theorem wtsSum_apply (y : FVec Ideal S10000x512 .f32) (init : FVec Ideal S_ .f32) (j : Fin 10000) :
    Host.reduceAdd y init reducesTo_S10000x512_S10000_d1 h_S_ (ix1 j)
      = init (Shape.Idx.first h_S_) + ∑ k : Fin 512, y (ix2 j k) := by
  simp only [Host.reduceAdd, Ideal.hostReduceAdd_def]
  rw [Ideal.hostReduceAdd_single reducesTo_S10000x512_S10000_d1 (by decide)]
  refine congrArg (_ + ·) (Finset.sum_congr rfl fun k _ => ?_)
  exact congrArg y (funext fun a => Fin.ext (by match a with | ⟨0, _⟩ => rfl | ⟨1, _⟩ => rfl))

variable (a0 : Feat) (a1 : Lab) (a2 : Wts)

theorem sqFeat_found (b : Fin 4096) : hSqFeat a0 (ix1 b) = sqFeat a0 b := by
  unfold hSqFeat
  rw [featSum_apply]
  rfl

theorem sqWts_found (j : Fin 10000) : hSqWts a2 (ix1 j) = sqWts a2 j := by
  unfold hSqWts
  rw [wtsSum_apply]
  rfl

/-- The column of squared norms at (b, 0). -/
theorem sqFeatCol_found (b : Fin 4096) : hSqFeatCol a0 (ix2 b (0 : Fin 1)) = sqFeat a0 b := by
  unfold hSqFeatCol
  rw [broadcastInDim_apply _ bcast_S4096_S4096x1_0 (hSqFeat a0) (ix2 b (0 : Fin 1)) (ix1 b) (fun a => match a with
    | ⟨0, _⟩ => by show b.val = if (4096 : Nat) = 1 then 0 else b.val; rw [if_neg (by decide)])]
  exact sqFeat_found a0 b

/-- The column term at (0, j). -/
theorem colTerm_found (j : Fin 10000) : hColTerm a2 (ix2 (0 : Fin 1) j) = sqWts a2 j := by
  unfold hColTerm
  rw [shapeCast_apply (hSqWts a2) shapeCasts_S10000_S1x10000 (ix2 (0 : Fin 1) j) (ix1 j)
    (by rewrite [Shape.rowMajor_val_one, Shape.rowMajor_val_two]; show j.val = 0 * 10000 + j.val; omega)]
  exact sqWts_found a2 j

/-! ## On class numbers -/

variable (hl : ∀ i, 0 ≤ (a1 i).toInt ∧ (a1 i).toInt < 10000)
include hl

/-- For a class number the clip and the re-indexing return the label. -/
theorem rowNo_found (b : Fin 4096) : hRowNo a1 (ix2 b (0 : Fin 1)) = a1 (ix1 b) := by
  unfold hRowNo
  rw [broadcastInDim_apply _ bcast_S4096_S4096x1_0 _ (ix2 b (0 : Fin 1)) (ix1 b) (fun a => match a with
    | ⟨0, _⟩ => by show b.val = if (4096 : Nat) = 1 then 0 else b.val; rw [if_neg (by decide)])]
  show Scalar.select (IntOp.cmpi .slt (IntOp.minsi 9999#32 (IntOp.maxsi 0#32 (a1 (ix1 b)))) 0#32)
      (IntOp.addi (IntOp.minsi 9999#32 (IntOp.maxsi 0#32 (a1 (ix1 b)))) 10000#32)
      (IntOp.minsi 9999#32 (IntOp.maxsi 0#32 (a1 (ix1 b)))) = a1 (ix1 b)
  rw [maxsi_zero_eq (hl _).1, minsi_last_eq (hl _).2, slt_zero_eq (hl _).1, select_zero]

/-- The gathered row of sample b is the weight row of its label. -/
theorem rows_found (b : Fin 4096) (k : Fin 512) :
    hRows a1 a2 (ix2 b k) = a2 (ix2 (clampClass (a1 (ix1 b))) k) := by
  unfold hRows
  refine (gather_rows_apply gather_S10000x512_S4096x1_S4096x512_1_0_n_n_0_1_1512_wf a2 (hRowNo a1) b k).trans ?_
  rw [rowNo_found a1 hl]

theorem dotLab_found (b : Fin 4096) : hDotLab a0 a1 a2 (ix1 b) = dotFW a0 a2 b (clampClass (a1 (ix1 b))) := by
  unfold hDotLab
  rw [featSum_apply]
  show Ideal.ofBits .f32 0x00000000#32 + _ = _
  rw [lit_zero, zero_add]
  unfold dotFW
  refine Finset.sum_congr rfl fun k _ => ?_
  show a0 (ix2 b k) * hRows a1 a2 (ix2 b k) = _
  rw [rows_found a1 a2 hl]

theorem sqLab_found (b : Fin 4096) : hSqLab a1 a2 (ix1 b) = sqWts a2 (clampClass (a1 (ix1 b))) := by
  unfold hSqLab
  rw [featSum_apply]
  unfold sqWts
  refine congrArg (_ + ·) (Finset.sum_congr rfl fun k _ => ?_)
  show hRows a1 a2 (ix2 b k) * hRows a1 a2 (ix2 b k) = _
  rw [rows_found a1 a2 hl]

/-- The labelled kernel entries are the specification's. -/
theorem labelled_found (i : S4096.Idx) : hLabelled a0 a1 a2 i = labelled a0 a1 a2 i := by
  obtain ⟨b, rfl⟩ : ∃ b : Fin 4096, i = ix1 b := ⟨i 0, eq_ix1 i⟩
  show Ideal.exp (Ideal.div (-((shapeCast _ (hSqFeatCol a0) shapeCasts_S4096x1_S4096 (ix1 b) + hSqLab a1 a2 (ix1 b))
      - Ideal.ofBits .f32 0x40000000#32 * hDotLab a0 a1 a2 (ix1 b))) (Ideal.ofBits .f32 0x3F99999A#32)) = _
  rw [shapeCast_apply (hSqFeatCol a0) shapeCasts_S4096x1_S4096 (ix1 b) (ix2 b (0 : Fin 1))
    (by rewrite [Shape.rowMajor_val_two, Shape.rowMajor_val_one]; show b.val * 1 + 0 = b.val; omega),
    sqFeatCol_found, sqLab_found a1 a2 hl, dotLab_found a0 a1 a2 hl]
  rfl

/-- The scale is the specification's. -/
theorem scale_found (s : S_.Idx) : hScale a0 a1 a2 s = scale a0 a1 a2 := by
  have hsum : Host.reduceAdd (hLabelled a0 a1 a2) (constant S_ .f32 0x00000000#32) reducesTo_S4096_S_d0 h_S_ s
      = Ideal.ofBits .f32 0x00000000#32 + ∑ i : S4096.Idx, labelled a0 a1 a2 i := by
    simp only [Host.reduceAdd, Ideal.hostReduceAdd_def]
    rw [Ideal.hostReduceAdd_total reducesTo_S4096_S_d0 (fun b => b.elim0)]
    exact congrArg (_ + ·) (Finset.sum_congr rfl fun i _ => labelled_found a0 a1 a2 hl i)
  show Ideal.ofBits .f32 0x40400000#32 * (Ideal.div (Ideal.ofBits .f32 0x3F800000#32)
      (max (Ideal.div (Host.reduceAdd (hLabelled a0 a1 a2) (constant S_ .f32 0x00000000#32) reducesTo_S4096_S_d0 h_S_ s)
        (Ideal.ofBits .f32 0x45800000#32)) (Ideal.ofBits .f32 0x3F000000#32)) * Ideal.ofBits .f32 0x41135D25#32) = _
  rw [hsum]
  rfl

/-- The row term at (b, 0). -/
theorem rowTerm_found (b : Fin 4096) : hRowTerm a0 a1 a2 (ix2 b (0 : Fin 1))
    = sqFeat a0 b - Ideal.ofBits .f32 0x3F99999A#32 * Ideal.log (scale a0 a1 a2) := by
  show hSqFeatCol a0 (ix2 b (0 : Fin 1))
    - broadcastInDim S4096x1 ![] bcast_S_S4096x1 (mulf (constant S_ .f32 0x3F99999A#32) (Host.log (hScale a0 a1 a2)))
        (ix2 b (0 : Fin 1)) = _
  rw [sqFeatCol_found, broadcastInDim_apply _ bcast_S_S4096x1 _ (ix2 b (0 : Fin 1)) ix0 (fun a => a.elim0)]
  show _ - Ideal.ofBits .f32 0x3F99999A#32 * Ideal.log (hScale a0 a1 a2 ix0) = _
  rw [scale_found a0 a1 a2 hl]

end Cert.KernelIdeal.Logits

end
-- ==== Proof.Domain.lean ====
/-
  What the precondition says of the three inputs.

  The precondition is the conjunction of four "for all entries" tests: |feat| < +inf, |weights| < +inf, label >= 0 and
  label < 10000, the label read as a signed integer. An extended real whose absolute value is below +inf is neither
  infinity, hence a real number; and a label between 0 and 9999 is a class number that names a row of the table as it
  stands, with no clamping and no wrap-around.
-/
import proofs.«429098_j12240656793881_3_alg».proof.Pre_finite_inputs
import proofs.«429098_j12240656793881_3_alg».proof.Proof.Spec
import Idealize.ShloMosaic.Lib.ReduceAll
import Idealize.ShloMosaic.Lib.ValueIdx

noncomputable section

namespace Cert.MetricLogits

open Idealize.ShloMosaic Idealize.ShloMosaic.ValueIdx

/-- The pattern of +inf denotes the top of the extended reals. -/
theorem lit_inf : Ideal.ofBits .f32 0x7F800000#32 = ⊤ := by
  simp [Ideal.ofBits, Ideal.ieee]

/-- An extended real whose absolute value tests below +inf is a real number. -/
theorem isReal_of_abs_lt_inf (x : EReal)
    (h : Ideal.cmp .olt (max x (-x)) (Ideal.ofBits .f32 0x7F800000#32) = 1#1) : IsReal x := by
  rw [lit_inf] at h
  have hlt : max x (-x) < ⊤ := by
    by_contra hc
    simp [Ideal.cmp, hc] at h
  induction x using EReal.rec with
  | bot => simp at hlt
  | coe r => exact isReal_coe r
  | top => simp at hlt

instance : Subsingleton Cert.Pre_finite_inputs.S_.Idx := ⟨fun a b => funext fun d => d.elim0⟩

/-- Under the precondition every entry of the two float inputs is a real number and every label is a class number,
    0 <= label < 10000 read signed. -/
theorem domain_of_pre [Cert.Pre_finite_inputs.Facts]
    (feat : FVec Ideal Cert.Pre_finite_inputs.S4096x512 .f32) (lab : IVec Cert.Pre_finite_inputs.S4096 32)
    (wts : FVec Ideal Cert.Pre_finite_inputs.S10000x512 .f32)
    (h : Cert.Pre_finite_inputs.fn (F := Ideal) feat lab wts = fun _ => 1#1) :
    (∀ i, IsReal (feat i)) ∧ (∀ i, IsReal (wts i)) ∧ ∀ b, 0 ≤ (lab b).toInt ∧ (lab b).toInt < 10000 := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun b => ⟨?_, ?_⟩⟩
  · exact isReal_of_abs_lt_inf (feat i) (Host.reduce_andi_all _ _ _ _ _ h1 i)
  · exact isReal_of_abs_lt_inf (wts i) (Host.reduce_andi_all _ _ _ _ _ h2 i)
  · have e := Host.reduce_andi_all _ _ _ _ _ h3 b
    have hle : (0#32 : BitVec 32).toInt ≤ (lab b).toInt := IntOp.cmpi_sge.1 e
    have h0 : (0#32 : BitVec 32).toInt = 0 := by decide
    omega
  · have e := Host.reduce_andi_all _ _ _ _ _ h4 b
    have hlt : (lab b).toInt < (10000#32 : BitVec 32).toInt := IntOp.cmpi_slt.1 e
    have h0 : (10000#32 : BitVec 32).toInt = 10000 := by decide
    omega

end Cert.MetricLogits

end
-- ==== Proof.KernelValue.lean ====
/-
  The kernel's program computes the specification's logits.

  The launch leaves, at (b, j), the body's stored value of its four operand arrays; the host stages put the features,
  the weights, the row term |x_b|^2 - D * log scale and the column term |w_j|^2 there. So the entry is the fused form
  exp ((((|x_b|^2 - D * log scale) + |w_j|^2) - 2 x_b.w_j) * (-1/D)), which on real inputs is scale * exp (-metric / D).
-/
import proofs.«429098_j12240656793881_3_alg».proof.Proof.KernelBlocks
import proofs.«429098_j12240656793881_3_alg».proof.Proof.KernelHostRead
import proofs.«429098_j12240656793881_3_alg».proof.Proof.Domain
import proofs.«429098_j12240656793881_3_alg».proof.Proof.Gen.Pre_finite_inputs

set_option maxRecDepth 16384

noncomputable section

namespace Cert.KernelIdeal.Logits

open Cert.KernelIdeal Cert.KernelIdeal.Gen Cert.KernelIdeal.Value Cert.MetricLogits
open Idealize.ShloMosaic Idealize.ShloMosaic.TcCoe Idealize.ShloMosaic.ValueIdx Idealize.SL.Sem

variable (m : (ℓ : Loc nD τ sig) → Buf (Elt Ideal) ℓ) (ρ : Dev nD → PrngReg)

/-- On class numbers, the launched array of the operands the host stages leave is the fused form of the inputs. -/
theorem launched_eq_fused (c : Dev nD) (a0 : Feat) (a1 : Lab) (a2 : Wts)
    (h0 : m ((c : Thread nD τ).loc main_arg0) = a0) (h1 : m ((c : Thread nD τ).loc main_arg1) = a1)
    (h2 : m ((c : Thread nD τ).loc main_arg2) = a2)
    (hl : ∀ i, 0 ≤ (a1 i).toInt ∧ (a1 i).toInt < 10000) :
    launched (V m c main_v0) (V m c main_v1) (V m c main_v38) (V m c main_v7) = fused a0 a1 a2 := by
  rw [found_feat, found_wts, found_rowTerm, found_colTerm, h0, h1, h2]
  funext i
  obtain ⟨b, j, rfl⟩ : ∃ (b : Fin 4096) (j : Fin 10000), i = ix2 b j := ⟨i 0, i 1, eq_ix2 i⟩
  show entryOf (hFeatNarrow a0) (hWtsNarrow a2) (hRowTerm a0 a1 a2) (hColTerm a2) b j = _
  unfold entryOf
  rw [rowTerm_found a0 a1 a2 hl, colTerm_found]
  rfl

/-- Under the precondition the kernel's program ends with its result at the specification's logits of its inputs. -/
theorem run_logits (hpre : ∀ c : Dev nD, Cert.Pre_finite_inputs.fn (F := Ideal) (m ((c : Thread nD τ).loc main_arg0))
      (m ((c : Thread nD τ).loc main_arg1)) (m ((c : Thread nD τ).loc main_arg2)) = fun _ => 1#1) :
    θ_run defs (onTc (τ := τ) (main (F := Ideal))) ⟨m, fun _ => 0, ρ⟩ fun r => ∀ c : Dev nD,
      r.2.mem ((c : Thread nD τ).loc main_v39) = logits (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (run_launched m ρ)
  obtain ⟨hf, hw, hl⟩ := domain_of_pre _ _ _ (hpre c)
  rw [launched_eq_fused m c _ _ _ rfl rfl rfl hl]
  exact funext fun i => fused_eq_logits hf hw _ i

end Cert.KernelIdeal.Logits

end
-- ==== Proof.RefValue.lean ====
/-
  The reference program computes the specification's logits.

  Its result is the product of a scalar, broadcast, with the kernel matrix exp (-(metric) / D). The kernel matrix is
  read entry by entry off the generated stages: the two squared norms are sums along the feature axis started at
  zero, the inner product is the contraction of feat with the transposed weights, and a transposed entry (k, j) is
  weights[j, k]. The scalar is computed from the entries of the kernel matrix that the labels pick, one per row, read
  under a mask that tests the label in range; for a class number the mask is set and the pick is the entry at the
  label, and the label is neither wrapped around nor clamped.
-/
import proofs.«429098_j12240656793881_3_alg».proof.Proof.Gen.ReferenceIdeal.Read
import proofs.«429098_j12240656793881_3_alg».proof.Proof.Target
import proofs.«429098_j12240656793881_3_alg».proof.Proof.ClassWords

noncomputable section

namespace Cert.ReferenceIdeal.Logits

open Cert.ReferenceIdeal Cert.ReferenceIdeal.Gen Cert.ReferenceIdeal.Read Cert.MetricLogits
open Idealize.ShloMosaic Idealize.ShloMosaic.ValueIdx

variable (x0 : Feat) (x1 : Lab) (x2 : Wts)

/-! ## The kernel matrix -/

/-- Entry (b, j) of the reference's exponential stage is the kernel of the distance between rows b and j. -/
theorem kern_read (b : Fin 4096) (j : Fin 10000) : val_main_v17 (F := Ideal) x0 x2 (ix2 b j) = kern x0 x2 b j := by
  have h1 : ∀ k : Fin 512, idx_main_v1 (idx_main_v2 (idx_main_v6 (ix2 b j))) k = ix2 b k := fun k =>
    funext fun a => by match a with | ⟨0, _⟩ => rfl | ⟨1, _⟩ => rfl
  have h2 : ∀ k : Fin 512, idx_main_v4 (idx_main_v5 (idx_main_v7 (ix2 b j))) k = ix2 j k := fun k =>
    funext fun a => by match a with | ⟨0, _⟩ => rfl | ⟨1, _⟩ => rfl
  have h3 : ∀ k : Fin 512, lidx_main_v10 (ix2 b j) k = ix2 b k := fun k =>
    funext fun a => by match a with | ⟨0, _⟩ => rfl | ⟨1, _⟩ => rfl
  have h4 : ∀ k : Fin 512, idx_main_v9 (ridx_main_v10 (ix2 b j) k) = ix2 j k := fun k =>
    funext fun a => by match a with | ⟨0, _⟩ => rfl | ⟨1, _⟩ => rfl
  simp only [val_main_v17_apply, val_main_v16_apply, val_main_v15_apply, val_main_cst_2_apply, val_main_v14_apply,
    val_main_v13_apply, val_main_v8_apply, val_main_v6_apply, val_main_v2_apply, val_main_v1_apply, val_main_cst_apply,
    val_main_v0_apply, val_main_v7_apply, val_main_v5_apply, val_main_v4_apply, val_main_cst_0_apply, val_main_v3_apply,
    val_main_v12_apply, val_main_v11_apply, val_main_cst_1_apply, val_main_v10_apply, val_main_v9_apply,
    Ideal.hostUnary_exp_def, Ideal.hostDivf_def, Ideal.hostNegf_def, Ideal.negf_def, Ideal.subf_def, Ideal.addf_def,
    Ideal.mulf_def, Ideal.ofBits_def, h1, h2, h3, h4]
  rfl

/-! ## The labels, as the gather finds them -/

variable (hl : ∀ i, 0 ≤ (x1 i).toInt ∧ (x1 i).toInt < 10000)
include hl

/-- A class number is not wrapped around: the stage that adds 10000 to negative labels returns the label. -/
theorem wrap_read (i : S4096x1.Idx) : val_main_call0_v4 (F := Ideal) x1 i = x1 (idx_main_v18 i) := by
  rw [val_main_call0_v4_apply, val_main_call0_v1_apply, val_main_v18_apply, val_main_call0_v0_apply,
    val_main_call0_c_apply, slt_zero_eq (hl _).1, select_zero]

/-- The in-range mask is set at every sample. -/
theorem mask_read (i : S4096x1.Idx) : val_main_call0_v12 (F := Ideal) x1 i = 1#1 := by
  unfold val_main_call0_v12
  refine reduce_andi_ones _ _ _ _ (fun q => ?_) rfl i
  rw [val_main_call0_v11_apply, val_main_call0_v7_apply, val_main_call0_v10_apply, val_main_call0_v5_apply,
    val_main_call0_v6_apply, val_main_call0_c_2_apply, val_main_call0_v9_apply, val_main_call0_v8_apply,
    val_main_call0_c_1_apply, wrap_read x1 hl, sge_zero_eq (hl _).1, sle_last_eq (hl _).2]
  decide

/-- The pick of sample b is the kernel entry at its label. -/
theorem pick_read (b : Fin 4096) :
    val_main_call0_v13 (F := Ideal) x0 x1 x2 (ix2 b (0 : Fin 1)) = kern x0 x2 b (clampClass (x1 (ix1 b))) := by
  unfold val_main_call0_v13
  refine (gather_entries_apply gather_S4096x10000_S4096x1x1_S4096x1_n_1_0_0_1_2_11_wf
    (val_main_v17 (F := Ideal) x0 x2) (val_main_call0_v5 (F := Ideal) x1) b).trans ?_
  rw [kern_read, val_main_call0_v5_apply, wrap_read x1 hl]
  exact congrArg (fun q => kern x0 x2 b (clampClass (x1 q))) (funext fun a => by
    match a with
    | ⟨0, _⟩ => exact Fin.ext (by simp))

/-- The labelled entries, as the reference sums them. -/
theorem labelled_read (i : S4096.Idx) : val_main_v20 (F := Ideal) x0 x1 x2 i = labelled x0 x1 x2 i := by
  obtain ⟨b, rfl⟩ : ∃ b : Fin 4096, i = ix1 b := ⟨i 0, eq_ix1 i⟩
  have hi : idx_main_v20 (ix1 b) = ix2 b (0 : Fin 1) := funext fun a => by
    match a with
    | ⟨0, _⟩ => exact Fin.ext (by simp)
    | ⟨1, _⟩ => rfl
  rw [val_main_v20_apply, val_main_v19_apply, mask_read x1 hl, select_one, hi, pick_read x0 x1 x2 hl]
  rfl

/-! ## The scale and the result -/

/-- The reference's scalar is the specification's scale. -/
theorem scale_read (s : S_.Idx) : val_main_v26 (F := Ideal) x0 x1 x2 s = scale x0 x1 x2 := by
  simp only [val_main_v26_apply, val_main_cst_8_apply, val_main_v25_apply, val_main_cst_7_apply, val_main_v24_apply,
    val_main_cst_6_apply, val_main_v23_apply, val_main_cst_5_apply, val_main_v22_apply, val_main_cst_4_apply,
    val_main_v21_apply, val_main_cst_3_apply, labelled_read x0 x1 x2 hl,
    Ideal.mulf_def, Ideal.hostDivf_def, Ideal.maximumf_def, Ideal.ofBits_def]
  rfl

/-- The reference's result is the specification's logits. -/
theorem result_read : val_main_v28 (F := Ideal) x0 x1 x2 = logits x0 x1 x2 := by
  funext i
  obtain ⟨b, j, rfl⟩ : ∃ (b : Fin 4096) (j : Fin 10000), i = ix2 b j := ⟨i 0, i 1, eq_ix2 i⟩
  rw [val_main_v28_apply, val_main_v27_apply, scale_read x0 x1 x2 hl, kern_read, Ideal.mulf_def]
  rfl

end Cert.ReferenceIdeal.Logits

end
-- ==== Proof.lean ====
/-
  The kernel-metric logits: a fused launch against the plain computation.

  Both programs take 4096 feature rows x_b, 10000 weight rows w_j and one class label per sample, and compute
    logits b j = scale * exp (-(|x_b|^2 + |w_j|^2 - 2 x_b.w_j) / D),   D the single-precision literal nearest 1.2,
  where scale = 3 * ((1 / max (mean_b exp (-(|x_b - w_label(b)|^2) / D)) (1/2)) * log 9999) is read off the entries at
  the samples' own classes. The reference forms the whole kernel matrix, picks those entries out of it, and scales the
  matrix. The kernel's program computes the labelled entries directly from the labelled weight rows, folds the scale
  into the row term as |x_b|^2 - D * log scale, and launches one pass that stores
    exp (((row term + |w_j|^2) - 2 x_b.w_j) * c),   c the kernel's constant, named -1/D.
  Over the extended reals the two agree whenever the float inputs are real numbers and every label is a class
  number: then every sum is a real and the scale a positive real, c * D = -1 turns the product with c into the
  quotient by D plus log scale, and exp (log scale) = scale. Outside the class numbers the reference re-indexes a
  negative label from the end or reads nothing, while the kernel's program clips it, so the precondition asks for
  0 <= label < 10000.
-/
import proofs.«429098_j12240656793881_3_alg».proof.Defs
import proofs.«429098_j12240656793881_3_alg».proof.Proof.Gen.Kernel
import proofs.«429098_j12240656793881_3_alg».proof.Proof.Gen.Kernel.Skeleton
import proofs.«429098_j12240656793881_3_alg».proof.Proof.Gen.Kernel.Launch
import proofs.«429098_j12240656793881_3_alg».proof.Proof.Gen.Kernel.Points
import proofs.«429098_j12240656793881_3_alg».proof.Proof.Gen.Kernel.Frame
import proofs.«429098_j12240656793881_3_alg».proof.Proof.Gen.KernelIdeal
import proofs.«429098_j12240656793881_3_alg».proof.Proof.Gen.KernelIdeal.Skeleton
import proofs.«429098_j12240656793881_3_alg».proof.Proof.Gen.KernelIdeal.Launch
import proofs.«429098_j12240656793881_3_alg».proof.Proof.Gen.KernelIdeal.Points
import proofs.«429098_j12240656793881_3_alg».proof.Proof.Gen.KernelIdeal.Frame
import proofs.«429098_j12240656793881_3_alg».proof.Proof.Gen.ReferenceIdeal
import proofs.«429098_j12240656793881_3_alg».proof.Proof.Gen.Pre_finite_inputs
import proofs.«429098_j12240656793881_3_alg».proof.Proof.Gen.KernelIdeal.Value
import proofs.«429098_j12240656793881_3_alg».proof.Proof.Gen.ReferenceIdeal.Run
import proofs.«429098_j12240656793881_3_alg».proof.Proof.Gen.ReferenceIdeal.Read
import proofs.«429098_j12240656793881_3_alg».proof.Proof.KernelValue
import proofs.«429098_j12240656793881_3_alg».proof.Proof.RefValue
import Idealize.ShloMosaic.Adequacy
import Idealize.ShloMosaic.Init

noncomputable section

namespace Cert.Proof

open Idealize.ShloMosaic Idealize.SL.Sem

/-- The word-level kernel program runs and leaves its inputs as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its inputs as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one idealization: the kernel's constant -0.8333333 is read as -1/D, D = 5033165/4194304. -/
theorem preserves : Cert.preserves_Kernel_KernelIdeal :=
  IdealRules.named_const.statement Cert.KernelIdeal.κ "c_neg_inv_d" .f32 0xBF555555#32
    ((-4194304 / 5033165 : ℝ) : EReal) rfl

/-- From agreeing inputs both programs end with the logits of those inputs. -/
theorem algebraic : Cert.algebraic_KernelIdeal_ReferenceIdeal := by
  intro m ρ m' ρ' hpre hagree
  refine ⟨_, Cert.KernelIdeal.Logits.run_logits m ρ hpre, ?_⟩
  refine (θ_run Cert.ReferenceIdeal.defs _ _).mono (fun _ h c => ⟨(h c).1.trans ?_, (h c).2⟩)
    (Cert.ReferenceIdeal.Value.run (F := Ideal) m' ρ')
  obtain ⟨-, -, hl⟩ := Cert.MetricLogits.domain_of_pre _ _ _ (hpre c)
  rw [Cert.ReferenceIdeal.Read.val_main_v28_eq, (hagree c).1, (hagree c).2.1, (hagree c).2.2]
  exact Cert.ReferenceIdeal.Logits.result_read _ _ _ hl

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
